-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S100000x1 : Shape := ⟨2, ![100000, 1]⟩
abbrev S1600000x1 : Shape := ⟨2, ![1600000, 1]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S100000x1 : S_.BroadcastsInDim S100000x1 (![] : Fin 0 → Fin S100000x1.rank)
  reducesTo_S100000x1_S_d0_1 : S100000x1.ReducesTo [0, 1] S_
  bcast_S_S1600000x1 : S_.BroadcastsInDim S1600000x1 (![] : Fin 0 → Fin S1600000x1.rank)
  reducesTo_S1600000x1_S_d0_1 : S1600000x1.ReducesTo [0, 1] S_

variable [Facts]

def fn_part1 {F : FTy → Type} [FloatOps F] (main_arg4 : FVec F S1600000x1 .f32) (main_v13 : IVec S_ 1) (main_v16 : IVec S100000x1 1) : IVec S_ 1 :=
  let main_c_5 : IVec S_ 1 := constantI S_ 1 1#1
  let main_v17 : IVec S_ 1 := (fun x v => Host.reduce IntOp.andi x v reducesTo_S100000x1_S_d0_1 h_S_) main_v16 main_c_5
  let main_v18 : IVec S_ 1 := andi main_v13 main_v17
  let main_v19 : FVec F S1600000x1 .f32 := Host.absf main_arg4
  let main_cst_6 : FVec F S_ .f32 := constant S_ .f32 0x7F800000#32
  let main_v20 : FVec F S1600000x1 .f32 := broadcastInDim S1600000x1 ![] bcast_S_S1600000x1 main_cst_6
  let main_v21 : IVec S1600000x1 1 := cmpf .olt main_v19 main_v20
  let main_c_7 : IVec S_ 1 := constantI S_ 1 1#1
  let main_v22 : IVec S_ 1 := (fun x v => Host.reduce IntOp.andi x v reducesTo_S1600000x1_S_d0_1 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S100000x1 .f32) (main_arg3 : FVec F S100000x1 .f32) (main_arg4 : FVec F S1600000x1 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S100000x1 .f32 := Host.absf main_arg3
  let main_cst_4 : FVec F S_ .f32 := constant S_ .f32 0x7F800000#32
  let main_v15 : FVec F S100000x1 .f32 := broadcastInDim S100000x1 ![] bcast_S_S100000x1 main_cst_4
  let main_v16 : IVec S100000x1 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S100000x1 : Shape := ⟨2, ![100000, 1]⟩
abbrev S1600000x1 : Shape := ⟨2, ![1600000, 1]⟩
abbrev S1600000 : Shape := ⟨1, ![1600000]⟩
abbrev S5000x128 : Shape := ⟨2, ![5000, 128]⟩
abbrev S5000x1 : Shape := ⟨2, ![5000, 1]⟩
abbrev S_ : Shape := ⟨0, ![]⟩
abbrev S1600000x128 : Shape := ⟨2, ![1600000, 128]⟩

abbrev nBuf : Space → Nat
  | .hbm => 25
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S100000x1, .f32⟩
  | .hbm, ⟨3, _⟩ => ⟨S100000x1, .f32⟩
  | .hbm, ⟨4, _⟩ => ⟨S1600000x1, .f32⟩
  | .hbm, ⟨5, _⟩ => ⟨S1600000, .i32⟩
  | .hbm, ⟨6, _⟩ => ⟨S1600000, .i32⟩
  | .hbm, ⟨7, _⟩ => ⟨S100000x128, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S100000x1 : Shape := ⟨2, ![100000, 1]⟩
abbrev S1600000x1 : Shape := ⟨2, ![1600000, 1]⟩
abbrev S1600000 : Shape := ⟨1, ![1600000]⟩
abbrev S_ : Shape := ⟨0, ![]⟩
abbrev S1600000x128 : Shape := ⟨2, ![1600000, 128]⟩

abbrev nBuf : Space → Nat
  | .hbm => 27
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S100000x1, .f32⟩
  | .hbm, ⟨3, _⟩ => ⟨S100000x1, .f32⟩
  | .hbm, ⟨4, _⟩ => ⟨S1600000x1, .f32⟩
  | .hbm, ⟨5, _⟩ => ⟨S1600000, .i32⟩
  | .hbm, ⟨6, _⟩ => ⟨S1600000, .i32⟩
  | .hbm, ⟨7, _⟩ => ⟨S100000x128, .f32⟩
  | .hbm, ⟨8, _⟩ => ⟨S100000x128, .f32⟩
  | .hbm, ⟨9, _⟩ => ⟨S100000x128, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.BlockPayload.lean ====
/-
  One grid point's arithmetic, read at an entry. The body stores, into a 5000 × 128 block, the matrix product of
  the point's 5000 feature rows with the whole weight matrix, each row then scaled by that row's coefficient.
  On the extended reals the two narrowings to bf16 are the identity and the accumulator starts at zero, so entry
  (p, q) of the block is

      (∑ k, x[p, k] · w[k, q]) · s[p, 0]

  for the loaded feature rows x, weights w and coefficients s. The contraction's index set has one axis of extent
  128; the sum is re-indexed through that axis's coordinate.
-/
import proofs.«180850_j52828097741226_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.Bridge.Block

open Cert.KernelIdeal Cert.KernelIdeal.Gen Idealize.ShloMosaic Idealize.ShloMosaic.ValueIdx

/-! ## The product's operand indices, axis by axis -/

theorem lhs_row (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhs_row (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhs_col (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The product into a zero accumulator is the row-by-column sum -/

theorem product_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## A coefficient column spread over the 128 lanes reads its row's entry -/

theorem spread_apply (s : Vec Ideal S5000x1 .f32) (p : Fin 5000) (q : Fin 128) :
    broadcastTo S5000x128 s broadcasts_S5000x1_S5000x128 (ix2 p q) = s (ix2 p 0) :=
  broadcastTo_apply s broadcasts_S5000x1_S5000x128 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-! ## The stored block at an entry -/

/-- Entry (p, q) of what one grid point stores: the row-by-column sum, times the row's coefficient. -/
theorem stored_apply (x : Vec Ideal S5000x128 .f32) (w : Vec Ideal S128x128 .f32) (s : Vec Ideal S5000x1 .f32)
    (p : Fin 5000) (q : Fin 128) :
    k0_pay1 (F := Ideal) x w s (ix2 p q) = (∑ k : Fin 128, x (ix2 p k) * w (ix2 k q)) * s (ix2 p 0) := by
  unfold k0_pay1
  show matmul dot_S5000x128_S128x128_S5000x128_1_0_0_1_n_n none (truncf .bf16 x bitsLt_bf16_f32) (truncf .bf16 w bitsLt_bf16_f32)
        (constant (F := Ideal) S5000x128 .f32 0x00000000#32) (ix2 p q)
      * broadcastTo S5000x128 s broadcasts_S5000x1_S5000x128 (ix2 p q) = _
  rw [product_apply, spread_apply]
  rfl

end Cert.Bridge.Block

end
-- ==== Proof.ScaledProjection.lean ====
/-
  The table both programs build before any edge is looked at: node features projected through the weight
  matrix and scaled, row by row, by the source coefficient. Entry (p, q) is

      (∑ k, feat[p, k] · W[k, q]) · cu[p, 0]

  on the extended reals: a sum of 128 products, then one product. Stated once here, over literal shapes and
  index by index, so that the tiled computation and the whole-array one can each be shown to be this function.
-/
import Idealize.ShloMosaic.PureOps.Ideal
import Idealize.ShloMosaic.Lib.ValueIdx

noncomputable section

namespace Cert.Bridge

open Idealize.ShloMosaic Idealize.ShloMosaic.ValueIdx

/-- The projected and source-scaled feature table, as a function of the three arrays it is made from. -/
def scaledProj (feat : FVec Ideal ⟨2, ![100000, 128]⟩ .f32) (W : FVec Ideal ⟨2, ![128, 128]⟩ .f32)
    (cu : FVec Ideal ⟨2, ![100000, 1]⟩ .f32) : FVec Ideal ⟨2, ![100000, 128]⟩ .f32 :=
  fun i => (∑ k : Fin 128, feat (ix2 (n0 := 100000) (n1 := 128) (i 0) k) * W (ix2 (n0 := 128) (n1 := 128) k (i 1)))
    * cu (ix2 (n0 := 100000) (n1 := 1) (i 0) 0)

/-- The same entry with the row and the column named. -/
theorem scaledProj_apply (feat : FVec Ideal ⟨2, ![100000, 128]⟩ .f32) (W : FVec Ideal ⟨2, ![128, 128]⟩ .f32)
    (cu : FVec Ideal ⟨2, ![100000, 1]⟩ .f32) (p : Fin 100000) (q : Fin 128) :
    scaledProj feat W cu (ix2 p q) = (∑ k : Fin 128, feat (ix2 p k) * W (ix2 k q)) * cu (ix2 p 0) := rfl

end Cert.Bridge

end
-- ==== Proof.BlockCover.lean ====
/-
  From twenty blocks to the whole table. Grid point t works on rows 5000·t … 5000·t + 4999: it is handed those
  rows of the feature table and of the coefficient column, and the whole weight matrix, and writes back those rows
  of the output. Its block, read at (p, q), is the sum of 128 products times the row's coefficient
  (the stored block at an entry), with row p of the block being row 5000·t + p of the arrays; so what it writes back
  is its own block of ONE whole-array function, the specification. Every row r lies in exactly the block of point
  r / 5000, so the blocks cover the array and the array ends holding the specification of the argument arrays.
-/
import proofs.«180850_j52828097741226_1_alg».proof.Proof.Gen.KernelIdeal.Frame
import proofs.«180850_j52828097741226_1_alg».proof.Proof.BlockPayload
import proofs.«180850_j52828097741226_1_alg».proof.Proof.ScaledProjection
import Idealize.ShloMosaic.Lib.Pipeline.Value

set_option maxRecDepth 16384

noncomputable section

namespace Cert.Bridge.Kernel

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The three argument arrays the region reads, as it finds them, at their literal types. -/
abbrev featArr (c : Dev nD) : FVec Ideal S100000x128 .f32 := V m c main_arg0
abbrev weightArr (c : Dev nD) : FVec Ideal S128x128 .f32 := V m c main_arg1
abbrev coeffArr (c : Dev nD) : FVec Ideal S100000x1 .f32 := V m c main_arg2

/-- Where each window's block sits at point t: the feature rows, the coefficient rows and the output rows move
    together, one block of rows per point; the weights never move; no window moves along the lanes. -/
theorem grid_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- What point t writes back is block t of the specification of the argument arrays. -/
theorem flushed_eq (c : Dev nD) (t : Fin cfg0.N) :
    (dats m 0 c).flushed 3 t
      = ((cfg0.win 3).blk t).view.read (Elt Ideal) (scaledProj (featArr m c) (weightArr m c) (coeffArr m c)) := by
  show (cfg0.win 3).cut (grid0.coords t) ((dats m 0 c).after 3 t) = _
  rw [after0_3]
  unfold out0_3
  rw [View.canon_unit_zero origin]
  simp only [View.ld_unit_zero (S := S5000x128) origin, View.ld_unit_zero (S := S128x128) origin,
    View.ld_unit_zero (S := S5000x1) origin]
  obtain ⟨e0, e1, e2, e3, e4, e5, e6, e7⟩ := grid_facts t
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (ix2 p q)
      = scaledProj (featArr m c) (weightArr m c) (coeffArr m c) (((cfg0.win 3).blk t).view.emb (ix2 p q))
  refine (Block.stored_apply (iblk m c 0 t) (iblk m c 1 t) (iblk m c 2 t) p q).trans ?_
  -- row p of each moving block is the array row that row p of the output block is; the lanes do not move
  have hfeat : ∀ k : Fin 128, iblk m c 0 t (ix2 p k)
      = featArr m c (ix2 (n0 := 100000) (n1 := 128) ((((cfg0.win 3).blk t).view.emb (ix2 p q)) 0) k) := by
    intro k
    show V m c main_arg0 (((cfg0.win 0).blk t).view.emb (ix2 p k)) = V m c main_arg0 _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have hweight : ∀ k : Fin 128, iblk m c 1 t (ix2 k q)
      = weightArr m c (ix2 (n0 := 128) (n1 := 128) k ((((cfg0.win 3).blk t).view.emb (ix2 p q)) 1)) := by
    intro k
    show V m c main_arg1 (((cfg0.win 1).blk t).view.emb (ix2 k q)) = V m c main_arg1 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have hcoeff : iblk m c 2 t (ix2 p 0)
      = coeffArr m c (ix2 (n0 := 100000) (n1 := 1) ((((cfg0.win 3).blk t).view.emb (ix2 p q)) 0) 0) := by
    show V m c main_arg2 (((cfg0.win 2).blk t).view.emb (ix2 p 0)) = V m c main_arg2 _
    refine congrArg _ (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  rw [hcoeff]
  exact congrArg (· * _) (Finset.sum_congr rfl fun k _ => by rw [hfeat k, hweight k])

/-- An index of the output array is in point t's block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- Row r is written back by point r / 5000: the twenty blocks cover the array. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (by omega : (i 0).val / 5000 < 20) N_0.symm⟩, rfl⟩
  obtain ⟨-, -, -, -, -, -, e6, e7⟩ := grid_facts t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after the region is the specification of the argument arrays as the region found them. -/
theorem projected (c : Dev nD) :
    (dats m 0 c).arrAt 3 cfg0.N = scaledProj (featArr m c) (weightArr m c) (coeffArr m c) :=
  (dats m 0 c).arrAt_eq_of_cover 3 _ (fun t _ => flushed_eq m c t) covered

end Cert.Bridge.Kernel

end
-- ==== Proof.EdgeTail.lean ====
/-
  What both programs do with the projected table once it exists, as ONE function of that table and of the four
  arrays the edges bring: a negative source index is wrapped by the node count, each edge gathers its source's
  row and scales it by the edge weight, the scaled rows are summed into their destination rows starting from
  zero, and each destination row is scaled by its coefficient.

  Nothing here is read at an index. The two programs apply these same operations to their own copy of the
  projected table, so once the tables agree the results agree by congruence; which rows an out-of-range index
  gathers or drops never has to be said.
-/
import proofs.«180850_j52828097741226_1_alg».proof.Proof.Gen.ReferenceIdeal
import Idealize.ShloMosaic.PureOps.Ideal

noncomputable section

namespace Cert.Bridge

open Cert.ReferenceIdeal Cert.ReferenceIdeal.Gen Idealize.ShloMosaic

/-- Gather by source, scale by edge weight, sum by destination into zeros, scale by destination coefficient. -/
def edgeTail (h : (⟨S100000x128, .f32⟩ : BufTy).Contents (Elt Ideal)) (cv : (⟨S100000x1, .f32⟩ : BufTy).Contents (Elt Ideal))
    (ew : (⟨S1600000x1, .f32⟩ : BufTy).Contents (Elt Ideal)) (src dst : (⟨S1600000, .i32⟩ : BufTy).Contents (Elt Ideal)) :
    (⟨S100000x128, .f32⟩ : BufTy).Contents (Elt Ideal) :=
  mulf (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (mulf (Host.gather gather_S100000x128_S1600000x1_S1600000x128_1_0_n_n_0_1_1128 h
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src)))
        (broadcastInDim S1600000x128 ![0, 1] bcast_S1600000x1_S1600000x128_0_1 ew)))
    (broadcastInDim S100000x128 ![0, 1] bcast_S100000x1_S100000x128_0_1 cv)

end Cert.Bridge

end
-- ==== Proof.KernelRun.lean ====
/-
  The tiled program's run, read. After its one region the output array holds the projected table
  (the blocks cover it), and the seventeen operations that follow are the shared edge tail applied to that
  array and to the four edge arrays, which nothing has written. So the program ends with the edge tail of the
  specification of its arguments, and its arguments as they were.
-/
import proofs.«180850_j52828097741226_1_alg».proof.Proof.BlockCover
import proofs.«180850_j52828097741226_1_alg».proof.Proof.EdgeTail
import Idealize.ShloMosaic.Lib.StableHlo.Run

set_option maxRecDepth 16384

noncomputable section

namespace Cert.Bridge.Kernel

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

set_option maxHeartbeats 1000000 in
/-- The operations after the region, applied to what the region left. -/
theorem tail_eq (c : Dev nD) :
    Pipeline.afterTail₀ cfgs (dats m) 0 (V0 m) [hostOps1] c main_v14
      = edgeTail ((dats m 0 c).arrAt 3 cfg0.N) (m ((c : Thread nD τ).loc main_arg3)) (m ((c : Thread nD τ).loc main_arg4))
          (m ((c : Thread nD τ).loc main_arg5)) (m ((c : Thread nD τ).loc main_arg6)) := by
  unfold Pipeline.afterTail₀
  show StableHlo.after hostOps1 _ (Proc.devRef .tc main_v14) = _
  after_results
  -- the projected table is the region's output array; the four edge arrays are no window's array
  have hproj : Pipeline.withArrays (cfgs 0).spec c (V0 m c) (fun w => (dats m 0 c).arrAt w (cfgs 0).N) (Proc.devRef .tc main_v0)
      = (dats m 0 c).arrAt 3 cfg0.N :=
    Pipeline.withArrays_arr spec0 launch0.win.arr_inj c _ _ 3
  have hcv : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by decide : ∀ w, Pipeline.arrRef spec0 w ≠ main_arg3)).trans (V_main_arg3 m c)
  have hew : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by decide : ∀ w, Pipeline.arrRef spec0 w ≠ main_arg4)).trans (V_main_arg4 m c)
  have hsrc : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by decide : ∀ w, Pipeline.arrRef spec0 w ≠ main_arg5)).trans (V_main_arg5 m c)
  have hdst : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by decide : ∀ w, Pipeline.arrRef spec0 w ≠ main_arg6)).trans (V_main_arg6 m c)
  rw [hproj, hcv, hew, hsrc, hdst]
  rfl

/-- Every weakly fair execution of the tiled program ends with the edge tail of the specification of its
    arguments in its result buffer, and with its seven arguments as they were. -/
theorem run : θ_run defs (onTc (τ := τ) (main (F := Ideal))) ⟨m, fun _ => 0, ρ⟩ fun r => ∀ c : Dev nD,
      r.2.mem ((c.tc : Thread nD τ).loc main_v14)
        = edgeTail (scaledProj (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v14 (Pipeline.mem_restRefs_of main_v14 (by decide) (by decide))).trans
        ((tail_eq m c).trans (congrArg (fun x => edgeTail x _ _ _ _) (projected m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Bridge.Kernel

end
-- ==== Proof.RefProjection.lean ====
/-
  The whole-array program's side. Its first three operations — a matrix product of the full feature table with
  the weights, the coefficient column spread over 128 lanes, their product — make the projected table, and read
  at an entry they are the sum of 128 products times the row's coefficient: the specification. The remaining
  operations are the shared edge tail applied to that table.
-/
import proofs.«180850_j52828097741226_1_alg».proof.Proof.Gen.ReferenceIdeal.Read
import proofs.«180850_j52828097741226_1_alg».proof.Proof.ScaledProjection
import proofs.«180850_j52828097741226_1_alg».proof.Proof.EdgeTail

noncomputable section

namespace Cert.Bridge.Ref

open Cert.ReferenceIdeal Cert.ReferenceIdeal.Gen Cert.ReferenceIdeal.Read Idealize.ShloMosaic Idealize.ShloMosaic.ValueIdx

/-! ## The operand indices of the product and of the spread column, by coordinates -/

theorem featIdx_eq (i : S100000x128.Idx) (k : Fin 128) : lidx_main_v0 i k = ix2 (n0 := 100000) (n1 := 128) (i 0) k :=
  funext fun a => Fin.ext (by match a with | ⟨0, _⟩ => rfl | ⟨1, _⟩ => rfl)
theorem weightIdx_eq (i : S100000x128.Idx) (k : Fin 128) : ridx_main_v0 i k = ix2 (n0 := 128) (n1 := 128) k (i 1) :=
  funext fun a => Fin.ext (by match a with | ⟨0, _⟩ => rfl | ⟨1, _⟩ => rfl)
theorem coeffIdx_eq (i : S100000x128.Idx) : idx_main_v1 i = ix2 (n0 := 100000) (n1 := 1) (i 0) 0 :=
  funext fun a => Fin.ext (by match a with | ⟨0, _⟩ => rfl | ⟨1, _⟩ => rfl)

/-! ## The projected table is the specification -/

theorem projection_eq (x0 : (⟨S100000x128, .f32⟩ : BufTy).Contents (Elt Ideal)) (x1 : (⟨S128x128, .f32⟩ : BufTy).Contents (Elt Ideal))
    (x2 : (⟨S100000x1, .f32⟩ : BufTy).Contents (Elt Ideal)) :
    val_main_v2 (F := Ideal) x0 x1 x2 = scaledProj x0 x1 x2 := by
  funext i
  rw [val_main_v2_apply, val_main_v0_apply, val_main_v1_apply]
  simp only [featIdx_eq, weightIdx_eq, coeffIdx_eq]
  rfl

/-! ## The result is the edge tail of the projected table -/

theorem result_eq (x0 : (⟨S100000x128, .f32⟩ : BufTy).Contents (Elt Ideal)) (x1 : (⟨S128x128, .f32⟩ : BufTy).Contents (Elt Ideal))
    (x2 x3 : (⟨S100000x1, .f32⟩ : BufTy).Contents (Elt Ideal)) (x4 : (⟨S1600000x1, .f32⟩ : BufTy).Contents (Elt Ideal))
    (x5 x6 : (⟨S1600000, .i32⟩ : BufTy).Contents (Elt Ideal)) :
    val_main_v16 (F := Ideal) x0 x1 x2 x3 x4 x5 x6 = edgeTail (scaledProj x0 x1 x2) x3 x4 x5 x6 := by
  rw [← projection_eq]
  rfl

end Cert.Bridge.Ref

end
-- ==== Proof.lean ====
/-
  Graph message passing with per-node and per-edge coefficients: project the node features through a weight matrix
  and scale each row by its source coefficient; for every edge gather the source's row and scale it by the edge
  weight; sum the scaled rows into their destination rows; scale each destination row by its coefficient.

  One program computes the projection in twenty blocks of 5000 rows, narrowing both operands to bf16 before the
  product and accumulating from zero; the other computes it as one product over the whole table. On the extended
  reals a narrowing is the identity and adding to zero changes nothing, so both tables are, entry by entry,

      (∑ k, feat[p, k] · W[k, q]) · cu[p, 0],

  the same sum of 128 products in the same order followed by the same product: no rearrangement, hence nothing
  that would need the inputs to be finite. Everything after the table — index wrap, gather, edge scaling,
  scatter-sum from zero, destination scaling — is the same sequence of operations in both programs, applied to
  equal tables and equal edge arrays, so the results are equal by congruence without reading a gather or a
  scatter at an index.

  The three runs: the two tiled programs terminate with their arguments unchanged (their generated frames); the
  whole-array program's run is its operations composed. No rewrite was applied in idealizing the tiled program,
  so there is nothing to preserve.
-/
import proofs.«180850_j52828097741226_1_alg».proof.Defs
import proofs.«180850_j52828097741226_1_alg».proof.Proof.Gen.Kernel
import proofs.«180850_j52828097741226_1_alg».proof.Proof.Gen.Kernel.Skeleton
import proofs.«180850_j52828097741226_1_alg».proof.Proof.Gen.Kernel.Launch
import proofs.«180850_j52828097741226_1_alg».proof.Proof.Gen.Kernel.Points
import proofs.«180850_j52828097741226_1_alg».proof.Proof.Gen.Kernel.Frame
import proofs.«180850_j52828097741226_1_alg».proof.Proof.Gen.KernelIdeal
import proofs.«180850_j52828097741226_1_alg».proof.Proof.Gen.KernelIdeal.Skeleton
import proofs.«180850_j52828097741226_1_alg».proof.Proof.Gen.KernelIdeal.Launch
import proofs.«180850_j52828097741226_1_alg».proof.Proof.Gen.KernelIdeal.Points
import proofs.«180850_j52828097741226_1_alg».proof.Proof.Gen.KernelIdeal.Frame
import proofs.«180850_j52828097741226_1_alg».proof.Proof.Gen.ReferenceIdeal
import proofs.«180850_j52828097741226_1_alg».proof.Proof.Gen.Pre_finite_inputs
import proofs.«180850_j52828097741226_1_alg».proof.Proof.Gen.ReferenceIdeal.Run
import proofs.«180850_j52828097741226_1_alg».proof.Proof.Gen.ReferenceIdeal.Read
import proofs.«180850_j52828097741226_1_alg».proof.Proof.KernelRun
import proofs.«180850_j52828097741226_1_alg».proof.Proof.RefProjection
import Idealize.ShloMosaic.Adequacy
import Idealize.ShloMosaic.Init

noncomputable section

namespace Cert.Proof

open Idealize.ShloMosaic Idealize.SL.Sem

theorem frame_tiled : Cert.frame_Kernel := fun m ρ _ => Cert.Kernel.Gen.frame m ρ

theorem frame_tiled_ideal : Cert.frame_KernelIdeal := fun m ρ _ => Cert.KernelIdeal.Gen.frame m ρ

/-- The whole-array program's run, its result dropped. -/
theorem frame_whole : Cert.frame_ReferenceIdeal := fun m ρ _ =>
  (θ_run Cert.ReferenceIdeal.defs _ _).mono (fun _ h c => (h c).2) (Cert.ReferenceIdeal.Value.run (F := Ideal) m ρ)

/-- Both programs end with the edge tail of the projected table of their (agreeing) arguments. -/
theorem algebraic : Cert.algebraic_KernelIdeal_ReferenceIdeal := by
  intro m ρ m' ρ' _ hagree
  refine ⟨_, Cert.Bridge.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v16_eq, Cert.Bridge.Ref.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_tiled, frame_tiled_ideal, frame_whole, trivial, algebraic⟩

end Cert.Proof

end
